-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x147456 : Shape := ⟨2, ![1, 147456]⟩
abbrev S1000x147456 : Shape := ⟨2, ![1000, 147456]⟩
abbrev S1000 : Shape := ⟨1, ![1000]⟩
abbrev S_ : Shape := ⟨0, ![]⟩

class Facts : Prop where
  bcast_S_S1x147456 : S_.BroadcastsInDim S1x147456 (![] : Fin 0 → Fin S1x147456.rank)
  reducesTo_S1x147456_S_d0_1 : S1x147456.ReducesTo [0, 1] S_
  h_S_ : 0 < S_.numel
  bcast_S_S1000x147456 : S_.BroadcastsInDim S1000x147456 (![] : Fin 0 → Fin S1000x147456.rank)
  reducesTo_S1000x147456_S_d0_1 : S1000x147456.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S1x147456 .f32) (main_arg1 : FVec F S1000x147456 .f32) (main_arg2 : FVec F S1000 .f32) : IVec S_ 1 :=
  let main_v0 : FVec F S1x147456 .f32 := Host.absf main_arg0
  let main_cst : FVec F S_ .f32 := constant S_ .f32 0x7F800000#32
  let main_v1 : FVec F S1x147456 .f32 := broadcastInDim S1x147456 ![] bcast_S_S1x147456 main_cst
  let main_v2 : IVec S1x147456 1 := cmpf .olt main_v0 main_v1
  let main_c : IVec S_ 1 := constantI S_ 1 1#1
  let main_v3 : IVec S_ 1 := (fun x v => Host.reduce IntOp.andi x v reducesTo_S1x147456_S_d0_1 h_S_) main_v2 main_c
  let main_v4 : FVec F S1000x147456 .f32 := Host.absf main_arg1
  let main_cst_0 : FVec F S_ .f32 := constant S_ .f32 0x7F800000#32
  let main_v5 : FVec F S1000x147456 .f32 := broadcastInDim S1000x147456 ![] bcast_S_S1000x147456 main_cst_0
  let main_v6 : IVec S1000x147456 1 := cmpf .olt main_v4 main_v5
  let main_c_1 : IVec S_ 1 := constantI S_ 1 1#1
  let main_v7 : IVec S_ 1 := (fun x v => Host.reduce IntOp.andi x v reducesTo_S1000x147456_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S1x147456 : Shape := ⟨2, ![1, 147456]⟩
abbrev S1000x147456 : Shape := ⟨2, ![1000, 147456]⟩
abbrev S1000 : Shape := ⟨1, ![1000]⟩
abbrev S2x1x1000 : Shape := ⟨3, ![2, 1, 1000]⟩
abbrev S1x4096 : Shape := ⟨2, ![1, 4096]⟩
abbrev S1000x4096 : Shape := ⟨2, ![1000, 4096]⟩
abbrev S1x1x1000 : Shape := ⟨3, ![1, 1, 1000]⟩
abbrev S1x1000 : Shape := ⟨2, ![1, 1000]⟩

abbrev nBuf : Space → Nat
  | .hbm => 11
  | .vmem => 7
  | .smem => 0
  | _ => 0

abbrev bufTy : (tb : Table) → Fin (tcTables nBuf tb) → BufTy
  | .hbm, ⟨0, _⟩ => ⟨S1x147456, .f32⟩
  | .hbm, ⟨1, _⟩ => ⟨S1000x147456, .f32⟩
  | .hbm, ⟨2, _⟩ => ⟨S1000, .f32⟩
  | .hbm, ⟨3, _⟩ => ⟨S2x1x1000, .f32⟩
  | .hbm, ⟨4, _⟩ => ⟨S1x1x1000, .f32⟩
  | .hbm, ⟨5, _⟩ => ⟨S1x1000, .f32⟩
  | .hbm, ⟨6, _⟩ => ⟨S1x1x1000, .f32⟩
  | .hbm, ⟨7, _⟩ => ⟨S1x1000, .f32⟩
  | .hbm, ⟨8, _⟩ => ⟨S1x1000, .f32⟩
  | .hbm, ⟨9, _⟩ => ⟨S1x1000, .f32⟩
  | .hbm, ⟨10, _⟩ => ⟨S1x1000, .f32⟩
  | .local _ .vmem, ⟨0, _⟩ => ⟨S1x4096, .f32⟩
  | .local _ .vmem, ⟨1, _⟩ => ⟨S1x4096, .f32⟩
  | .local _ .vmem, ⟨2, _⟩ => ⟨S1000x4096, .f32⟩
  | .local _ .vmem, ⟨3, _⟩ => ⟨S1000x4096, .f32⟩
  | .local _ .vmem, ⟨4, _⟩ => ⟨S1x1x1000, .f32⟩
  | .local _ .vmem, ⟨5, _⟩ => ⟨S1x1x1000, .f32⟩
  | .local _ .vmem, ⟨6, _⟩ => ⟨S1x1000, .f32⟩
  | _, _ => ⟨S1x147456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 18], ![false, false]⟩

def k0_cond2 (i : grid0.Coords) : BitVec 1 :=
  let arg1 : BitVec 32 := BitVec.ofNat 32 (i 1).val
  let c17_i32 : BitVec 32 := 17#32
  let v13 : BitVec 1 := Scalar.cmpi .eq arg1 c17_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S1x4096_S1x4096_0_0 : ∀ a, (![0, 0] : Fin 2 → Nat) a + S1x4096.size a ≤ S1x4096.size a
  h_S1x4096 : 0 < S1x4096.numel
  bitsLt_bf16_f32 : FTy.bits .bf16 < FTy.bits .f32
  inb_S1000x4096_S1000x4096_0_0 : ∀ a, (![0, 0] : Fin 2 → Nat) a + S1000x4096.size a ≤ S1000x4096.size a
  h_S1000x4096 : 0 < S1000x4096.numel
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  shapeCasts_S1x1000_S1x1x1000 : S1x1000.ShapeCasts S1x1x1000
  slices_S2x1x1000_S1x1x1000_0_0_0 : S2x1x1000.Slices ![0, 0, 0] S1x1x1000
  slices_S2x1x1000_S1x1x1000_1_0_0 : S2x1x1000.Slices ![1, 0, 0] S1x1x1000
  bcast_S1000_S1x1000_1 : S1000.BroadcastsInDim S1x1000 (![1] : Fin 1 → Fin S1x1000.rank)
  dot_S1x4096_S1000x4096_S1x1000_1_1_0_0_n_n_wf : DotDims.WF S1x4096 S1000x4096 S1x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x147456.size a
  hwx0_0 : ∀ i : grid0.Coords, EltTy.bits .f32 = 32 ∨ (Rect.block (s := S1x147456) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4096.size a ≤ S1000x147456.size a
  hwx0_1 : ∀ i : grid0.Coords, EltTy.bits .f32 = 32 ∨ (Rect.block (s := S1000x147456) S1000x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1000.size a ≤ S2x1x1000.size a
  hwx0_2 : ∀ i : grid0.Coords, EltTy.bits .f32 = 32 ∨ (Rect.block (s := S2x1x1000) S1x1x1000.size (cc0_transform_2 i) (hinb0_2 i)).WholeWords (EltTy.packing .f32)

variable [Facts₀]

def dot_S1x4096_S1000x4096_S1x1000_1_1_0_0_n_n : DotDims S1x4096 S1000x4096 S1x1000 where
  lhsContracting := [1]
  rhsContracting := [1]
  lhsNonContracting := [0]
  rhsNonContracting := [0]
  lhsBatch := []
  rhsBatch := []
  wf := dot_S1x4096_S1000x4096_S1x1000_1_1_0_0_n_n_wf

abbrev win0_0 : Pipeline.Window sig grid0 :=
  Pipeline.Window.ofSpec (Memref.whole main_arg0) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1x147456 : Shape := ⟨2, ![1, 147456]⟩
abbrev S1000x147456 : Shape := ⟨2, ![1000, 147456]⟩
abbrev S1000 : Shape := ⟨1, ![1000]⟩
abbrev S1x16384x3x3 : Shape := ⟨4, ![1, 16384, 3, 3]⟩
abbrev S1000x16384x3x3 : Shape := ⟨4, ![1000, 16384, 3, 3]⟩
abbrev S1x1000 : Shape := ⟨2, ![1, 1000]⟩
abbrev S1x1000x1x1 : Shape := ⟨4, ![1, 1000, 1, 1]⟩
abbrev S147456x1000 : Shape := ⟨2, ![147456, 1000]⟩

abbrev nBuf : Space → Nat
  | .hbm => 11
  | .vmem => 0
  | .smem => 0
  | _ => 0

abbrev bufTy : (tb : Table) → Fin (tcTables nBuf tb) → BufTy
  | .hbm, ⟨0, _⟩ => ⟨S1x147456, .f32⟩
  | .hbm, ⟨1, _⟩ => ⟨S1000x147456, .f32⟩
  | .hbm, ⟨2, _⟩ => ⟨S1000, .f32⟩
  | .hbm, ⟨3, _⟩ => ⟨S1x16384x3x3, .f32⟩
  | .hbm, ⟨4, _⟩ => ⟨S1000x16384x3x3, .f32⟩
  | .hbm, ⟨5, _⟩ => ⟨S1x1000, .f32⟩
  | .hbm, ⟨6, _⟩ => ⟨S1x1000x1x1, .f32⟩
  | .hbm, ⟨7, _⟩ => ⟨S147456x1000, .f32⟩
  | .hbm, ⟨8, _⟩ => ⟨S1x1000, .f32⟩
  | .hbm, ⟨9, _⟩ => ⟨S1x1000, .f32⟩
  | .hbm, ⟨10, _⟩ => ⟨S1x1000, .f32⟩
  | _, _ => ⟨S1x147456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S1x147456_S1x16384x3x3 : S1x147456.ShapeCasts S1x16384x3x3
  shapeCasts_S1000x147456_S1000x16384x3x3 : S1000x147456.ShapeCasts S1000x16384x3x3
  bcast_S1x1000_S1x1000x1x1_0_1 : S1x1000.BroadcastsInDim S1x1000x1x1 (![0, 1] : Fin 2 → Fin S1x1000x1x1.rank)
  transposes_S1000x147456_S147456x1000_1_0 : S1000x147456.Transposes [1, 0] S147456x1000
  bcast_S1000_S1x1000_1 : S1000.BroadcastsInDim S1x1000 (![1] : Fin 1 → Fin S1x1000.rank)
  dot_S1x16384x3x3_S1000x16384x3x3_S1x1000_132_132_0_0_n_n_wf : DotDims.WF S1x16384x3x3 S1000x16384x3x3 S1x1000 [1, 3, 2] [1, 3, 2] [0] [0] [] []
  dot_S1x147456_S147456x1000_S1x1000_1_0_0_1_n_n_wf : DotDims.WF S1x147456 S147456x1000 S1x1000 [1] [0] [0] [1] [] []

variable [Facts₀]

def dot_S1x16384x3x3_S1000x16384x3x3_S1x1000_132_132_0_0_n_n : DotDims S1x16384x3x3 S1000x16384x3x3 S1x1000 where
  lhsContracting := [1, 3, 2]
  rhsContracting := [1, 3, 2]
  lhsNonContracting := [0]
  rhsNonContracting := [0]
  lhsBatch := []
  rhsBatch := []
  wf := dot_S1x16384x3x3_S1000x16384x3x3_S1x1000_132_132_0_0_n_n_wf
def dot_S1x147456_S147456x1000_S1x1000_1_0_0_1_n_n : DotDims S1x147456 S147456x1000 S1x1000 where
  lhsContracting := [1]
  rhsContracting := [0]
  lhsNonContracting := [0]
  rhsNonContracting := [1]
  lhsBatch := []
  rhsBatch := []
  wf := dot_S1x147456_S147456x1000_S1x1000_1_0_0_1_n_n_wf

class Facts : Prop extends Facts₀ where

variable [Facts]
-- ==== Proof.KernelPieces.lean ====
/-
  What one run of the kernel body leaves behind, case by case, as values.

  The body keeps a [1, 1000] row in scratch memory across the 18 column blocks of a half of the contraction. At a block
  it adds to that row the product of the block of `x` [1, 4096] with the block of `W` [1000, 4096] (contracted along
  the 4096 columns); at the first block of a half it first sets the row to zero; at the last it also copies the row,
  re-laid as [1, 1, 1000], to the output block. Each lemma below names the value a case's stores leave — the store's
  payload, its loads reading the whole buffers they are given — for any float instance.
-/
import proofs.«165481_j68590627717564_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is neither first nor last of its half: the scratch row `xs` becomes the payload of the body's one
    store into it, the accumulation step over the point's two input blocks. -/
theorem scratch_B (c : Dev nD) (i : grid0.Coords) (a2 : Memref sig .tc .vmem S1x4096 .f32) (h2 : a2.IsWhole)
    (a3 : Memref sig .tc .vmem S1000x4096 .f32) (h3 : a3.IsWhole) (a4 : Memref sig .tc .vmem S1x1x1000 .f32) (h4 : a4.IsWhole)
    (a5 : Memref sig .tc .vmem S1x1000 .f32) (h5 : a5.IsWhole) (hc0 : ¬cond0_0 i) (hc1 : ¬cond0_1 i)
    (x0 : Vec F S1x4096 .f32) (x1 : Vec F S1000x4096 .f32) (xs : Vec F S1x1000 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz2]
  simp only [View.readAt_eq_ld, h2.read_unread, h3.read_unread, h5.read_unread, View.ld_unit_zero (S := S1x4096) hz2,
    View.ld_unit_zero (S := S1000x4096) hz2, View.ld_unit_zero (S := S1x1000) hz2]

/-- The last point of a half leaves the same accumulation step in the scratch row … -/
theorem scratch_C (c : Dev nD) (i : grid0.Coords) (a2 : Memref sig .tc .vmem S1x4096 .f32) (h2 : a2.IsWhole)
    (a3 : Memref sig .tc .vmem S1000x4096 .f32) (h3 : a3.IsWhole) (a4 : Memref sig .tc .vmem S1x1x1000 .f32) (h4 : a4.IsWhole)
    (a5 : Memref sig .tc .vmem S1x1000 .f32) (h5 : a5.IsWhole) (hc0 : ¬cond0_0 i) (hc1 : cond0_1 i)
    (x0 : Vec F S1x4096 .f32) (x1 : Vec F S1000x4096 .f32) (xs : Vec F S1x1000 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S1x4096) hz2,
    View.ld_unit_zero (S := S1000x4096) hz2, View.ld_unit_zero (S := S1x1000) hz2]

/-- … and copies that row, re-laid as a [1, 1, 1000] block, into the output's staging buffer. -/
theorem out_C (c : Dev nD) (i : grid0.Coords) (a2 : Memref sig .tc .vmem S1x4096 .f32) (h2 : a2.IsWhole)
    (a3 : Memref sig .tc .vmem S1000x4096 .f32) (h3 : a3.IsWhole) (a4 : Memref sig .tc .vmem S1x1x1000 .f32) (h4 : a4.IsWhole)
    (a5 : Memref sig .tc .vmem S1x1000 .f32) (h5 : a5.IsWhole) (hc0 : ¬cond0_0 i) (hc1 : cond0_1 i)
    (x0 : Vec F S1x4096 .f32) (x1 : Vec F S1000x4096 .f32) (xs : Vec F S1x1000 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3]
  simp only [View.readAt_eq_ld, h2.read_unread, h3.read_unread, h5.read_unread, View.ld_unit_zero (S := S1x4096) hz2,
    View.ld_unit_zero (S := S1000x4096) hz2, View.ld_unit_zero (S := S1x1000) hz2, View.readCov_unit_zero (S := S1x1000) _ hz2]

/-- The first point of a half: the body first stores the zero row, reads it back, and leaves the accumulation step
    over the zero row. -/
theorem scratch_A (c : Dev nD) (i : grid0.Coords) (a2 : Memref sig .tc .vmem S1x4096 .f32) (h2 : a2.IsWhole)
    (a3 : Memref sig .tc .vmem S1000x4096 .f32) (h3 : a3.IsWhole) (a4 : Memref sig .tc .vmem S1x1x1000 .f32) (h4 : a4.IsWhole)
    (a5 : Memref sig .tc .vmem S1x1000 .f32) (h5 : a5.IsWhole) (hc0 : cond0_0 i) (hc1 : ¬cond0_1 i)
    (x0 : Vec F S1x4096 .f32) (x1 : Vec F S1000x4096 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1000) hz2]
  simp only [View.readAt_eq_ld, h2.read_unread, h3.read_unread, View.ld_unit_zero (S := S1x4096) hz2,
    View.ld_unit_zero (S := S1000x4096) hz2, View.readCov_unit_zero (S := S1x1000) _ hz2]

end Cert.KernelIdeal.Acc

end
-- ==== Proof.LibBlockSum.lean ====
/-
  Sums over a long axis cut into consecutive blocks of equal length.

  A contraction over `(p + q) * b` positions, done as `p` blocks of `b` positions followed by `q` more such
  blocks, is the one sum over all positions: in any additive commutative monoid (the extended reals among them — no
  finiteness is used, only that addition is associative and commutative and `0` its unit), whatever the summand.
  The summand is a function of the natural position, so that no bound proof travels with an index.
-/
import Mathlib.Algebra.BigOperators.Fin

open scoped BigOperators

namespace Cert.BlockSum

variable {M : Type*} [AddCommMonoid M]

/-- The positions below `a * b` are the `a` consecutive runs `n * b, …, n * b + (b - 1)`. -/
theorem sum_range_mul (a b : ℕ) (f : ℕ → M) :
    ∑ j ∈ Finset.range (a * b), f j = ∑ n ∈ Finset.range a, ∑ l ∈ Finset.range b, f (n * b + l) := by
  induction a with
  | zero => simp
  | succ a ih => rw [Nat.succ_mul, Finset.sum_range_add, ih, Finset.sum_range_succ]

/-- The same with the position inside a run a `Fin b`, and the positions themselves a `Fin (a * b)`. -/
theorem sum_fin_mul (a b : ℕ) (f : ℕ → M) :
    ∑ j : Fin (a * b), f j.val = ∑ n ∈ Finset.range a, ∑ l : Fin b, f (n * b + l.val) := by
  rw [← Finset.sum_range (fun j => f j), sum_range_mul]
  exact Finset.sum_congr rfl fun n _ => Finset.sum_range (fun l => f (n * b + l))

/-- The runs taken in two groups, the first `p` and the `q` after them: the two groups' totals add up to the whole. -/
theorem sum_fin_two_groups (p q b : ℕ) (f : ℕ → M) :
    ∑ j : Fin ((p + q) * b), f j.val
      = (∑ s ∈ Finset.range p, ∑ l : Fin b, f (s * b + l.val))
        + ∑ s ∈ Finset.range q, ∑ l : Fin b, f ((p + s) * b + l.val) := by
  rw [sum_fin_mul, Finset.sum_range_add]

end Cert.BlockSum
-- ==== Proof.DenseSpec.lean ====
/-
  The function both programs compute, over the extended reals: a dense layer `x · Wᵀ + b` with one input row of
  147456 features and 1000 outputs,

      dense x W b (0, o) = (∑ j < 147456, x (0, j) · W (o, j)) + b o.

  The summand is written as a function of the natural position `j` (zero past the axis, which no sum below reaches), so
  that the same term serves the one long sum and the blocked one: 147456 = 36 · 4096, and the positions taken as 36
  consecutive blocks of 4096 — the first 18 in one partial sum, the last 18 in another — add up to the whole
  (`dense_eq_two_halves`). Only associativity and commutativity of `+` on the extended reals are used: no entry has to
  be finite.
-/
import Idealize.ShloMosaic.Lib.ValueIdx
import proofs.«165481_j68590627717564_1_alg».proof.Proof.LibBlockSum

noncomputable section

open scoped BigOperators
open Idealize.ShloMosaic Idealize.ShloMosaic.ValueIdx

namespace Cert.Dense

/-- The product at input position `j` for output `o`: `x (0, j) · W (o, j)`. -/
def term (x : (⟨2, ![1, 147456]⟩ : Shape).Idx → EReal) (w : (⟨2, ![1000, 147456]⟩ : Shape).Idx → EReal) (o : Fin 1000)
    (j : ℕ) : EReal :=
  if h : j < 147456 then x (ix2 (0 : Fin 1) ⟨j, h⟩) * w (ix2 o ⟨j, h⟩) else 0

theorem term_of_lt (x : (⟨2, ![1, 147456]⟩ : Shape).Idx → EReal) (w : (⟨2, ![1000, 147456]⟩ : Shape).Idx → EReal)
    (o : Fin 1000) (j : ℕ) (h : j < 147456) : term x w o j = x (ix2 (0 : Fin 1) ⟨j, h⟩) * w (ix2 o ⟨j, h⟩) :=
  dif_pos h

/-- The partial product over column block `n` (positions `4096 n … 4096 n + 4095`) for output `o`. -/
def blockDot (x : (⟨2, ![1, 147456]⟩ : Shape).Idx → EReal) (w : (⟨2, ![1000, 147456]⟩ : Shape).Idx → EReal) (o : Fin 1000)
    (n : ℕ) : EReal :=
  ∑ l : Fin 4096, term x w o (n * 4096 + l.val)

/-- The partial product over half `q` of the positions: its 18 column blocks `18 q … 18 q + 17`. -/
def halfDot (x : (⟨2, ![1, 147456]⟩ : Shape).Idx → EReal) (w : (⟨2, ![1000, 147456]⟩ : Shape).Idx → EReal) (o : Fin 1000)
    (q : ℕ) : EReal :=
  ∑ s ∈ Finset.range 18, blockDot x w o (18 * q + s)

/-- The dense layer's output row. -/
def dense (x : (⟨2, ![1, 147456]⟩ : Shape).Idx → EReal) (w : (⟨2, ![1000, 147456]⟩ : Shape).Idx → EReal)
    (b : (⟨1, ![1000]⟩ : Shape).Idx → EReal) : (⟨2, ![1, 1000]⟩ : Shape).Idx → EReal :=
  fun i => (∑ j : Fin 147456, term x w (i 1) j.val) + b (ix1 (i 1))

/-- The long contraction is the two half contractions added. -/
theorem dense_eq_two_halves (x : (⟨2, ![1, 147456]⟩ : Shape).Idx → EReal) (w : (⟨2, ![1000, 147456]⟩ : Shape).Idx → EReal)
    (b : (⟨1, ![1000]⟩ : Shape).Idx → EReal) (i : (⟨2, ![1, 1000]⟩ : Shape).Idx) :
    dense x w b i = (halfDot x w (i 1) 0 + halfDot x w (i 1) 1) + b (ix1 (i 1)) := by
  unfold dense halfDot blockDot
  simp only [Nat.mul_zero, Nat.zero_add, Nat.mul_one]
  rw [← Cert.BlockSum.sum_fin_two_groups 18 18 4096 (term x w (i 1))]

end Cert.Dense

end
-- ==== Proof.KernelAcc.lean ====
/-
  The scratch row across the grid, over the extended reals.

  The grid has 36 points: half `q = t / 18` of the contraction, step `t % 18`. Point `t` reads column block `t` of
  `x` [1, 147456] and of `W` [1000, 147456] (4096 columns each) and adds their product to the scratch row, which the
  first point of a half starts from zero. So after the last point of half `q` the row holds, at output `o`,

      ∑ s < 18, ∑ l < 4096, x (0, 4096 (18 q + s) + l) · W (o, 4096 (18 q + s) + l)

  — the steps folded from the zero row, by induction on the step (never by listing the points), then unrolled as a sum
  over the half's column blocks. At the extended reals narrowing an operand to sixteen bits is the identity and the
  product into a zero row is the plain sum over the contracted columns.
-/
import proofs.«165481_j68590627717564_1_alg».proof.Proof.KernelPieces
import proofs.«165481_j68590627717564_1_alg».proof.Proof.DenseSpec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

/-! ## The payloads at an index, over the extended reals -/

theorem lhs_ax0 (i : S1x1000.Idx) (q : dot_S1x4096_S1000x4096_S1x1000_1_1_0_0_n_n.contr.Idx) :
    (dot_S1x4096_S1000x4096_S1x1000_1_1_0_0_n_n.lhsIdx i q 0).val = (i 0).val := by
  unfold DotDims.lhsIdx
  rw [dif_neg (show ¬(0 : Fin S1x4096.rank) ∈ dot_S1x4096_S1000x4096_S1x1000_1_1_0_0_n_n.lhsBatch by decide), dif_pos (show (0 : Fin S1x4096.rank) ∈ dot_S1x4096_S1000x4096_S1x1000_1_1_0_0_n_n.lhsNonContracting by decide)]
  rfl
theorem lhs_ax1 (i : S1x1000.Idx) (q : dot_S1x4096_S1000x4096_S1x1000_1_1_0_0_n_n.contr.Idx) :
    (dot_S1x4096_S1000x4096_S1x1000_1_1_0_0_n_n.lhsIdx i q 1).val = (q ⟨0, by decide⟩).val :=
  dot_S1x4096_S1000x4096_S1x1000_1_1_0_0_n_n.lhsIdx_val_of_single rfl i q
theorem rhs_ax0 (i : S1x1000.Idx) (q : dot_S1x4096_S1000x4096_S1x1000_1_1_0_0_n_n.contr.Idx) :
    (dot_S1x4096_S1000x4096_S1x1000_1_1_0_0_n_n.rhsIdx i q 0).val = (i 1).val := by
  unfold DotDims.rhsIdx
  rw [dif_neg (show ¬(0 : Fin S1000x4096.rank) ∈ dot_S1x4096_S1000x4096_S1x1000_1_1_0_0_n_n.rhsBatch by decide), dif_pos (show (0 : Fin S1000x4096.rank) ∈ dot_S1x4096_S1000x4096_S1x1000_1_1_0_0_n_n.rhsNonContracting by decide)]
  rfl
theorem rhs_ax1 (i : S1x1000.Idx) (q : dot_S1x4096_S1000x4096_S1x1000_1_1_0_0_n_n.contr.Idx) :
    (dot_S1x4096_S1000x4096_S1x1000_1_1_0_0_n_n.rhsIdx i q 1).val = (q ⟨0, by decide⟩).val :=
  dot_S1x4096_S1000x4096_S1x1000_1_1_0_0_n_n.rhsIdx_val_of_single rfl i q

/-- The accumulation step at an output: the row's entry plus the block product
    `∑ l < 4096, x₀ (0, l) · x₁ (o, l)` — the narrowing of both operands is the identity on extended reals, and the
    product into the zero row is the plain sum over the contracted columns. -/
theorem step_apply (x0 : Vec Ideal S1x4096 .f32) (x1 : Vec Ideal S1000x4096 .f32) (xs : Vec Ideal S1x1000 .f32) (i : S1x1000.Idx) :
    k0_pay2 x0 x1 xs i = xs i + ∑ l : Fin 4096, x0 (ix2 (0 : Fin 1) l) * x1 (ix2 (i 1) l) := by
  unfold k0_pay2
  rw [shapeCast_self]
  show (xs i : EReal) + FloatOps.matmul (F := Ideal) dot_S1x4096_S1000x4096_S1x1000_1_1_0_0_n_n none (truncf (F := Ideal) .bf16 x0 bitsLt_bf16_f32)
      (truncf (F := Ideal) .bf16 x1 bitsLt_bf16_f32) (constant (F := Ideal) S1x1000 .f32 0x00000000#32) i = _
  rw [Ideal.matmul_constant_zero_apply, ← Equiv.sum_comp (contrEquiv1 dot_S1x4096_S1000x4096_S1x1000_1_1_0_0_n_n 4096 rfl rfl).symm]
  refine congrArg (xs i + ·) (Finset.sum_congr rfl fun k _ => ?_)
  have hk := contrEquiv1_symm_val dot_S1x4096_S1000x4096_S1x1000_1_1_0_0_n_n 4096 rfl rfl k
  have hi0 : (i 0).val = 0 := by have h : (i 0).val < 1 := (i 0).isLt; omega
  have el : dot_S1x4096_S1000x4096_S1x1000_1_1_0_0_n_n.lhsIdx i ((contrEquiv1 dot_S1x4096_S1000x4096_S1x1000_1_1_0_0_n_n 4096 rfl rfl).symm k) = ix2 (0 : Fin 1) k := funext fun a => Fin.ext (by
    match a with
    | ⟨0, _⟩ => exact (lhs_ax0 _ _).trans hi0
    | ⟨1, _⟩ => exact (lhs_ax1 _ _).trans hk)
  have er : dot_S1x4096_S1000x4096_S1x1000_1_1_0_0_n_n.rhsIdx i ((contrEquiv1 dot_S1x4096_S1000x4096_S1x1000_1_1_0_0_n_n 4096 rfl rfl).symm k) = ix2 (i 1) k := funext fun a => Fin.ext (by
    match a with
    | ⟨0, _⟩ => exact rhs_ax0 _ _
    | ⟨1, _⟩ => exact (rhs_ax1 _ _).trans hk)
  rw [el, er]
  rfl

/-- The row the first point of a half starts from is zero. -/
theorem zero_row_apply (i : S1x1000.Idx) : k0_pay1 (F := Ideal) i = 0 := by
  unfold k0_pay1
  rw [shapeCast_self]
  show Ideal.ofBits .f32 0x00000000#32 = 0
  exact Ideal.ofBits_zero_f32

/-- The copy to the output block re-lays the row [1, 1000] as [1, 1, 1000]: entry `(0, 0, o)` is entry `(0, o)`. -/
theorem relay_apply (acc : Vec Ideal S1x1000 .f32) (j : S1x1x1000.Idx) :
    k0_pay3 acc j = acc (ix2 (0 : Fin 1) (j 2)) := by
  unfold k0_pay3
  exact shapeCast_apply acc shapeCasts_S1x1000_S1x1x1000 j (ix2 (0 : Fin 1) (j 2))
    (by rewrite [Shape.rowMajor_val_two, Shape.rowMajor_val_three]
        have h0 : (j 0).val < 1 := (j 0).isLt; have h1 : (j 1).val < 1 := (j 1).isLt
        show 0 * 1000 + (j 2).val = ((j 0).val * 1 + (j 1).val) * 1000 + (j 2).val; omega)

/-! ## The input blocks, read off the argument arrays -/

variable (m : (ℓ : Loc nD τ sig) → Buf (Elt Ideal) ℓ)

/-- The index maps over the grid: point `t` (half `t / 18`, step `t % 18`) reads column block `t` of `x` and of
    `W`, and its output block is row `t / 18` of the [2, 1, 1000] array of partial results. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val / 18 ∧ win0_2.index t (1 : Fin 3) = 0 ∧ win0_2.index t (2 : Fin 3) = 0 :=
  (by decide +kernel : ∀ t : Fin grid0.N, _)

/-- The two argument arrays as the region finds them, and their blocks at point `t`, each at its literal shape. -/
abbrev xarr (c : Dev nD) : Vec Ideal S1x147456 .f32 := V m c main_arg0
abbrev warr (c : Dev nD) : Vec Ideal S1000x147456 .f32 := V m c main_arg1
abbrev xblk (c : Dev nD) (t : Fin cfg0.N) : Vec Ideal S1x4096 .f32 := iblk m c 0 t
abbrev wblk (c : Dev nD) (t : Fin cfg0.N) : Vec Ideal S1000x4096 .f32 := iblk m c 1 t

/-- Entry `(0, l)` of the block of `x` at point `t` is `x (0, 4096 t + l)`. -/
theorem xblk_apply (c : Dev nD) (t : Fin cfg0.N) (l : Fin 4096) (h : t.val * 4096 + l.val < 147456) :
    xblk m c t (ix2 (0 : Fin 1) l) = xarr m c (ix2 (0 : Fin 1) ⟨t.val * 4096 + l.val, h⟩) := by
  obtain ⟨e0, e1, -, -, -, -, -⟩ := idx_facts t
  unfold xblk xarr iblk
  rw [View.read_apply]
  show V m c main_arg0 _ = V m c main_arg0 _
  congr 1
  funext a
  apply Fin.ext
  match a with
  | ⟨0, _⟩ => show win0_0.index t (0 : Fin 2) * 1 + 1 * 0 = 0; omega
  | ⟨1, _⟩ => show win0_0.index t (1 : Fin 2) * 4096 + 1 * l.val = t.val * 4096 + l.val; omega

/-- Entry `(o, l)` of the block of `W` at point `t` is `W (o, 4096 t + l)`. -/
theorem wblk_apply (c : Dev nD) (t : Fin cfg0.N) (o : Fin 1000) (l : Fin 4096) (h : t.val * 4096 + l.val < 147456) :
    wblk m c t (ix2 o l) = warr m c (ix2 o ⟨t.val * 4096 + l.val, h⟩) := by
  obtain ⟨-, -, e0, e1, -, -, -⟩ := idx_facts t
  unfold wblk warr iblk
  rw [View.read_apply]
  show V m c main_arg1 _ = V m c main_arg1 _
  congr 1
  funext a
  apply Fin.ext
  match a with
  | ⟨0, _⟩ => show win0_1.index t (0 : Fin 2) * 1000 + 1 * o.val = o.val; omega
  | ⟨1, _⟩ => show win0_1.index t (1 : Fin 2) * 4096 + 1 * l.val = t.val * 4096 + l.val; omega

/-- So the product of the two blocks at point `t`, for output `o`, is the partial product over column block `t`. -/
theorem block_product (c : Dev nD) (t : Fin cfg0.N) (o : Fin 1000) :
    ∑ l : Fin 4096, xblk m c t (ix2 (0 : Fin 1) l) * wblk m c t (ix2 o l)
      = Cert.Dense.blockDot (xarr m c) (warr m c) o t.val := by
  have hN : t.val < 36 := lt_of_lt_of_eq t.isLt (show cfg0.N = 36 from N_0)
  unfold Cert.Dense.blockDot
  refine Finset.sum_congr rfl fun l _ => ?_
  have hl : l.val < 4096 := l.isLt
  have h : t.val * 4096 + l.val < 147456 := by omega
  rw [xblk_apply m c t l h, wblk_apply m c t o l h, Cert.Dense.term_of_lt _ _ o _ h]

/-! ## The scratch row, point by point -/

/-- The scratch row after point `n`. -/
abbrev scr (c : Dev nD) (n : ℕ) (h : n < cfg0.N) : Vec Ideal S1x1000 .f32 := (outsAt0 m c n h).2

/-- At the first point of a half the row is the step over the zero row. -/
theorem scr_first (c : Dev nD) (n : ℕ) (h : n < cfg0.N) (h0 : n % 18 = 0) :
    scr m c n h = k0_pay2 (xblk m c ⟨n, h⟩) (wblk m c ⟨n, h⟩) (k0_pay1 (F := Ideal)) := by
  have h1 : ¬n % 18 = 17 := by omega
  show (outsAt0 m c (⟨n, h⟩ : Fin cfg0.N).val (⟨n, h⟩ : Fin cfg0.N).isLt).2 = _
  rw [outsAt0_A m c ⟨n, h⟩ h0 h1]
  dsimp only
  exact scratch_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) scM0_0 (Memref.isWhole_whole _) ((hcond0_0 ⟨n, h⟩).mpr h0)
    (fun hh => h1 ((hcond0_1 ⟨n, h⟩).mp hh)) (iblk m c 0 ⟨n, h⟩) (iblk m c 1 ⟨n, h⟩)

/-- At every other point it is the step over what the point before left. -/
theorem scr_step (c : Dev nD) (n : ℕ) (h : n + 1 < cfg0.N) (h0 : ¬(n + 1) % 18 = 0) :
    scr m c (n + 1) h
      = k0_pay2 (xblk m c ⟨n + 1, h⟩) (wblk m c ⟨n + 1, h⟩) (scr m c n (Nat.lt_of_succ_lt h)) := by
  show (outsAt0 m c (⟨n + 1, h⟩ : Fin cfg0.N).val (⟨n + 1, h⟩ : Fin cfg0.N).isLt).2 = _
  by_cases h1 : (n + 1) % 18 = 17
  · rw [outsAt0_C m c ⟨n + 1, h⟩ h0 h1]
    dsimp only
    exact scratch_C (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) scM0_0 (Memref.isWhole_whole _)
      (fun hh => h0 ((hcond0_0 ⟨n + 1, h⟩).mp hh)) ((hcond0_1 ⟨n + 1, h⟩).mpr h1) (iblk m c 0 ⟨n + 1, h⟩)
      (iblk m c 1 ⟨n + 1, h⟩) (outsAt0 m c n (Nat.lt_of_succ_lt h)).2
  · rw [outsAt0_B m c ⟨n + 1, h⟩ h0 h1]
    dsimp only
    exact scratch_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) scM0_0 (Memref.isWhole_whole _)
      (fun hh => h0 ((hcond0_0 ⟨n + 1, h⟩).mp hh)) (fun hh => h1 ((hcond0_1 ⟨n + 1, h⟩).mp hh)) (iblk m c 0 ⟨n + 1, h⟩)
      (iblk m c 1 ⟨n + 1, h⟩) (outsAt0 m c n (Nat.lt_of_succ_lt h)).2

/-- The output block the last point of a half stores is that point's scratch row, re-laid. -/
theorem out_last (c : Dev nD) (t : Fin cfg0.N) (h1 : t.val % 18 = 17) :
    (outsAt0 m c t.val t.isLt).1 = k0_pay3 (outsAt0 m c t.val t.isLt).2 := by
  have h0 : ¬t.val % 18 = 0 := by omega
  rw [outsAt0_C m c t h0 h1]
  dsimp only
  rw [scratch_C (F := Ideal) c (grid0.coords t) (ms0_0 t) (hs0_0 t) (ms0_1 t) (hs0_1 t) (ms0_2 t) (hs0_2 t) scM0_0
    (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2]
  exact out_C (F := Ideal) c (grid0.coords t) (ms0_0 t) (hs0_0 t) (ms0_1 t) (hs0_1 t) (ms0_2 t) (hs0_2 t) scM0_0
    (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2

/-- After the last point of half `q` the scratch row holds, at output `o`, the partial product over the half's 18
    column blocks: the fold of the steps from the zero row, unrolled as a sum over the blocks `18 q … 18 q + 17`. -/
theorem scr_last (c : Dev nD) (q : ℕ) (h : 18 * q + 17 < cfg0.N) (i : S1x1000.Idx) :
    scr m c (18 * q + 17) h i = Cert.Dense.halfDot (xarr m c) (warr m c) (i 1) q := by
  have hN : cfg0.N = 36 := N_0
  rw [Pipeline.eq_accAt (N := cfg0.N) (fun n h => scr m c n h) 18
    (fun n h => k0_pay2 (xblk m c ⟨n, h⟩) (wblk m c ⟨n, h⟩) (k0_pay1 (F := Ideal)))
    (fun n h acc => k0_pay2 (xblk m c ⟨n, h⟩) (wblk m c ⟨n, h⟩) acc)
    (fun n h h0 => scr_first m c n h h0) (fun n h h0 => scr_step m c n h h0) q 17 (by decide) h]
  rw [Pipeline.accAt_add_apply (N := cfg0.N) _ _ (fun _ => (0 : EReal))
    (fun n i => Cert.Dense.blockDot (xarr m c) (warr m c) (i 1) n) (18 * q) 17
    (fun hb i => by
      refine (step_apply (xblk m c ⟨18 * q, hb⟩) (wblk m c ⟨18 * q, hb⟩) (k0_pay1 (F := Ideal)) i).trans ?_
      rw [zero_row_apply, block_product m c ⟨18 * q, hb⟩ (i 1)])
    (fun n hn acc i _ _ => by
      refine (step_apply (xblk m c ⟨n, hn⟩) (wblk m c ⟨n, hn⟩) acc i).trans ?_
      rw [block_product m c ⟨n, hn⟩ (i 1)])
    17 (le_refl _) h i]
  unfold Cert.Dense.halfDot
  exact zero_add _

end Cert.KernelIdeal.Acc

end
-- ==== Proof.KernelArray.lean ====
/-
  The array of partial rows, the host lines after the region, and the run read.

  The output window is a [2, 1, 1000] array written one [1, 1, 1000] block per half, by the half's last point (step 17):
  the scratch row of that point, re-laid. The two blocks tile the array, so after the region row `q` holds half `q`'s
  partial product. The host then takes the two rows, re-lays each as [1, 1000], adds them, and adds the bias broadcast
  along the row: at `(0, o)` that is (half 0 + half 1) + b o, the dense layer's value there.
-/
import proofs.«165481_j68590627717564_1_alg».proof.Proof.KernelAcc
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-! ## The array of partial results after the region -/

/-- Equal points have equal scratch rows (the bound travels with the point). -/
theorem scr_congr (c : Dev nD) {u v : ℕ} (e : u = v) (hu : u < cfg0.N) (hv : v < cfg0.N) : scr m c u hu = scr m c v hv := by
  subst e; rfl

/-- What the [2, 1, 1000] array ends holding: row `q` is half `q`'s partial product. -/
def partials (c : Dev nD) : Vec Ideal S2x1x1000 .f32 :=
  fun i => Cert.Dense.halfDot (xarr m c) (warr m c) (i 2) (i 0).val

/-- The point that writes back (the last of its half, `t % 18 = 17`) writes block `t / 18` of `partials`. -/
theorem flushed_eq (c : Dev nD) (t : Fin cfg0.N) (hf : (cfg0.win 2).flush t = true) :
    (dats m 0 c).flushed 2 t = ((cfg0.win 2).blk t).view.read (Elt Ideal) (partials m c) := by
  have h17 : t.val % 18 = 17 := (flush0_2 t).mp hf
  have hN : cfg0.N = 36 := N_0
  have htN : t.val < cfg0.N := t.isLt
  obtain ⟨-, -, -, -, e0, e1, e2⟩ := idx_facts t
  show (cfg0.win 2).cut (grid0.coords t) ((dats m 0 c).after 2 t) = _
  rw [after0_2, out_last m c t h17]
  funext j
  show k0_pay3 (outsAt0 m c t.val t.isLt).2 j = partials m c (((cfg0.win 2).blk t).view.emb j)
  refine (relay_apply (outsAt0 m c t.val t.isLt).2 j).trans ?_
  have ht : t.val = 18 * (t.val / 18) + 17 := by omega
  have hlt : 18 * (t.val / 18) + 17 < cfg0.N := by omega
  have hj0 : (j 0).val < 1 := (j 0).isLt
  have a2 : (((cfg0.win 2).blk t).view.emb j) 2 = j 2 :=
    Fin.ext (by show win0_2.index t (2 : Fin 3) * 1000 + 1 * (j 2).val = (j 2).val; omega)
  have a0 : ((((cfg0.win 2).blk t).view.emb j) 0).val = t.val / 18 := by
    show win0_2.index t (0 : Fin 3) * 1 + 1 * (j 0).val = t.val / 18; omega
  have key : partials m c (((cfg0.win 2).blk t).view.emb j) = Cert.Dense.halfDot (xarr m c) (warr m c) (j 2) (t.val / 18) := by
    show Cert.Dense.halfDot (xarr m c) (warr m c) ((((cfg0.win 2).blk t).view.emb j) 2) ((((cfg0.win 2).blk t).view.emb j) 0).val = _
    rw [a2, a0]
  rw [key]
  show scr m c t.val t.isLt (ix2 (0 : Fin 1) (j 2)) = _
  rw [scr_congr m c ht t.isLt hlt, scr_last m c (t.val / 18) hlt]

/-- Every entry of the array is in the block some writing point writes: entry `(q, 0, o)` in that of the last point of
    half `q`. -/
theorem covered (c : Dev nD) (i : S2x1x1000.Idx) :
    ∃ t : Fin cfg0.N, (cfg0.win 2).flush t = true ∧ i ∈ ((cfg0.win 2).blk t).view.set := by
  have hN : cfg0.N = 36 := N_0
  have h0 : (i 0).val < 2 := (i 0).isLt
  have h1 : (i 1).val < 1 := (i 1).isLt
  have h2 : (i 2).val < 1000 := (i 2).isLt
  have hlt : 18 * (i 0).val + 17 < cfg0.N := by omega
  refine ⟨⟨18 * (i 0).val + 17, hlt⟩, (flush0_2 _).mpr (by show (18 * (i 0).val + 17) % 18 = 17; omega), ?_⟩
  obtain ⟨-, -, -, -, e0, e1, e2⟩ := idx_facts ⟨18 * (i 0).val + 17, hlt⟩
  have e0' : win0_2.index ⟨18 * (i 0).val + 17, hlt⟩ (0 : Fin 3) = (18 * (i 0).val + 17) / 18 := e0
  show i ∈ ((View.whole main_v0).slice (win0_2.rect ⟨18 * (i 0).val + 17, hlt⟩)).set
  rw [View.set_slice_whole, Rect.mem_set_unit]
  intro a
  match a with
  | ⟨0, _⟩ => show win0_2.index ⟨18 * (i 0).val + 17, hlt⟩ (0 : Fin 3) * 1 ≤ (i 0).val ∧ (i 0).val < win0_2.index ⟨18 * (i 0).val + 17, hlt⟩ (0 : Fin 3) * 1 + 1; omega
  | ⟨1, _⟩ => show win0_2.index ⟨18 * (i 0).val + 17, hlt⟩ (1 : Fin 3) * 1 ≤ (i 1).val ∧ (i 1).val < win0_2.index ⟨18 * (i 0).val + 17, hlt⟩ (1 : Fin 3) * 1 + 1; omega
  | ⟨2, _⟩ => show win0_2.index ⟨18 * (i 0).val + 17, hlt⟩ (2 : Fin 3) * 1000 ≤ (i 2).val ∧ (i 2).val < win0_2.index ⟨18 * (i 0).val + 17, hlt⟩ (2 : Fin 3) * 1000 + 1000; omega

/-- So the array ends holding `partials`. -/
theorem final_partials (c : Dev nD) : (dats m 0 c).arrAt 2 cfg0.N = partials m c :=
  (dats m 0 c).arrAt_eq_of_cover 2 (partials m c) (flushed_eq m c) (covered c)

/-! ## The host lines after the region -/

/-- Row `q` of a [2, 1, 1000] array, sliced out and re-laid as [1, 1000], read at `(0, o)`: entry `(q, 0, o)`. -/
theorem row_apply (A : Vec Ideal S2x1x1000 .f32) (q : Fin 2) (off : Fin 3 → ℕ) (e0 : off 0 = q.val) (e1 : off 1 = 0)
    (e2 : off 2 = 0) (hs : S2x1x1000.Slices off S1x1x1000) (hc : S1x1x1000.ShapeCasts S1x1000) (i : S1x1000.Idx) :
    shapeCast S1x1000 (extractStridedSlice S1x1x1000 off A hs) hc i = A (ix3 q (0 : Fin 1) (i 1)) := by
  rw [shapeCast_apply _ hc i (ix3 (0 : Fin 1) (0 : Fin 1) (i 1)) (by
      rewrite [Shape.rowMajor_val_three, Shape.rowMajor_val_two]
      have h0 : (i 0).val < 1 := (i 0).isLt
      show (0 * 1 + 0) * 1000 + (i 1).val = (i 0).val * 1000 + (i 1).val; omega)]
  exact extractStridedSlice_apply off A hs _ (ix3 q (0 : Fin 1) (i 1)) (fun a => match a with
    | ⟨0, _⟩ => by show q.val = off 0 + 0; omega
    | ⟨1, _⟩ => by show 0 = off 1 + 0; omega
    | ⟨2, _⟩ => by show (i 1).val = off 2 + (i 1).val; omega)

/-- The bias broadcast along the row, read at `(0, o)`: `b o`. -/
theorem bias_apply (b : Vec Ideal S1000 .f32) (hb : S1000.BroadcastsInDim S1x1000 (![1] : Fin 1 → Fin S1x1000.rank))
    (i : S1x1000.Idx) : broadcastInDim S1x1000 ![1] hb b i = b (ix1 (i 1)) :=
  broadcastInDim_apply _ hb b i (ix1 (i 1)) (fun a => match a with
    | ⟨0, _⟩ => by show (i 1).val = if (1000 : Nat) = 1 then 0 else (i 1).val; rw [if_neg (by decide)])

/-- The program's result: the host adds the two rows of partial results and the bias — the dense layer of the three
    arguments, the long contraction being its two halves added. -/
theorem tail_eq (c : Dev nD) :
    Pipeline.afterTail₀ cfgs (dats m) 0 (V0 m) [hostOps1] c main_v7
      = Cert.Dense.dense (m ((c : Thread nD τ).loc main_arg0)) (m ((c : Thread nD τ).loc main_arg1)) (m ((c : Thread nD τ).loc main_arg2)) := by
  have hW0 : Pipeline.withArrays (cfgs 0).spec c (V0 m c) (fun w => (dats m 0 c).arrAt w (cfgs 0).N) (Proc.devRef .tc main_v0)
      = partials m c :=
    (Pipeline.withArrays_arr spec0 launch0.win.arr_inj c _ _ 2).trans (final_partials m c)
  have hW2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v7) = _
  after_results
  rw [hW0, hW2]
  funext i
  show (shapeCast S1x1000 (extractStridedSlice S1x1x1000 ![0, 0, 0] (partials m c) slices_S2x1x1000_S1x1x1000_0_0_0) shapeCasts_S1x1x1000_S1x1000 i
      + shapeCast S1x1000 (extractStridedSlice S1x1x1000 ![1, 0, 0] (partials m c) slices_S2x1x1000_S1x1x1000_1_0_0) shapeCasts_S1x1x1000_S1x1000 i)
      + broadcastInDim S1x1000 ![1] bcast_S1000_S1x1000_1 (m ((c : Thread nD τ).loc main_arg2)) i = _
  rw [row_apply (partials m c) 0 ![0, 0, 0] rfl rfl rfl, row_apply (partials m c) 1 ![1, 0, 0] rfl rfl rfl, bias_apply,
    Cert.Dense.dense_eq_two_halves]
  rfl

/-! ## The run, read -/

/-- Every weakly fair execution of the program ends with the result at the dense layer of the arguments, and the
    arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v7)
        = Cert.Dense.dense (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Acc

end
-- ==== Proof.RefDot.lean ====
/-
  The reference, read at an index, is the dense layer `x · Wᵀ + b` of Proof/DenseSpec.lean.

  Its result is the host's contraction of `x` [1, 147456] with the transpose of `W` [1000, 147456] over the 147456
  positions, plus the bias broadcast along the row: at `(0, o)` the sum over `j` of `x (0, j) · W (o, j)`, plus `b o`
  (the transpose swaps the two coordinates back; the row coordinate of a one-row array is `0`).
-/
import proofs.«165481_j68590627717564_1_alg».proof.Proof.Gen.ReferenceIdeal.Read
import proofs.«165481_j68590627717564_1_alg».proof.Proof.DenseSpec

noncomputable section

open scoped BigOperators
open Idealize.ShloMosaic Idealize.ShloMosaic.ValueIdx

namespace Cert.ReferenceIdeal.Dense

open Cert.ReferenceIdeal Cert.ReferenceIdeal.Read

/-- The left operand's index at output `i` and position `k` is `(0, k)`: the array has one row. -/
theorem lidx_eq (i : S1x1000.Idx) (k : Fin 147456) : lidx_main_v5 i k = ix2 (0 : Fin 1) ⟨k.val, k.isLt⟩ :=
  funext fun a => Fin.ext (by
    match a with
    | ⟨0, _⟩ => have h : (i 0).val < 1 := (i 0).isLt; show (i 0).val = 0; omega
    | ⟨1, _⟩ => rfl)

/-- The right operand is `W` transposed: its index `(k, o)` reads `W` at `(o, k)`. -/
theorem ridx_eq (i : S1x1000.Idx) (k : Fin 147456) : idx_main_v4 (ridx_main_v5 i k) = ix2 (i 1) ⟨k.val, k.isLt⟩ :=
  funext fun a => Fin.ext (by
    match a with
    | ⟨0, _⟩ => rfl
    | ⟨1, _⟩ => rfl)

/-- The bias is broadcast along the row: at `(0, o)` it is `b o`. -/
theorem bidx_eq (i : S1x1000.Idx) : idx_main_v6 i = ix1 (i 1) :=
  funext fun a => Fin.ext (by
    match a with
    | ⟨0, _⟩ => rfl)

/-- The reference's result, as a function of the three arguments, is the dense layer. -/
theorem ref_eq_dense (x : (⟨S1x147456, .f32⟩ : BufTy).Contents (Elt Ideal)) (w : (⟨S1000x147456, .f32⟩ : BufTy).Contents (Elt Ideal))
    (b : (⟨S1000, .f32⟩ : BufTy).Contents (Elt Ideal)) :
    val_main_v7 (F := Ideal) x w b = Cert.Dense.dense x w b := by
  funext i
  rw [val_main_v7_apply, val_main_v5_apply, val_main_v6_apply, bidx_eq]
  show (∑ k : Fin 147456, x (lidx_main_v5 i k) * val_main_v4 (F := Ideal) w (ridx_main_v5 i k)) + b (ix1 (i 1)) = _
  unfold Cert.Dense.dense
  refine congrArg (· + b (ix1 (i 1))) (Finset.sum_congr rfl fun k _ => ?_)
  rw [val_main_v4_apply, lidx_eq, ridx_eq, Cert.Dense.term_of_lt x w (i 1) k.val k.isLt]
  rfl

end Cert.ReferenceIdeal.Dense

end
-- ==== Proof.lean ====
/-
  A dense layer `x · Wᵀ + b` (one row of 147456 features, 1000 outputs) computed by a kernel that cuts the contraction
  into two halves of 18 column blocks of 4096, accumulates each half's partial product in a scratch row across its 18
  grid points and writes it out at the half's last point, the host then adding the two partial rows and the bias —
  against the reference's one long contraction plus bias.

  Over the extended reals the two are the same function of the arguments: narrowing the operands to sixteen bits is the
  identity there, a block product into a zero row is the plain sum over its columns, and the 147456 positions taken as
  2 · 18 blocks of 4096 add up to the whole sum (Proof/DenseSpec.lean; only associativity and commutativity of `+`, so
  no entry needs to be finite). The kernel side is read off its run: the scratch row point by point
  (Proof/KernelPieces.lean, Proof/KernelAcc.lean), the array of partial rows and the host lines after it
  (Proof/KernelArray.lean); the reference side off its run, one operation at a time (Proof/RefDot.lean).
  The idealization rewrote nothing, so the kernel and its idealization are one text.
-/
import proofs.«165481_j68590627717564_1_alg».proof.Defs
import proofs.«165481_j68590627717564_1_alg».proof.Proof.Gen.Kernel
import proofs.«165481_j68590627717564_1_alg».proof.Proof.Gen.Kernel.Skeleton
import proofs.«165481_j68590627717564_1_alg».proof.Proof.Gen.Kernel.Launch
import proofs.«165481_j68590627717564_1_alg».proof.Proof.Gen.Kernel.Points
import proofs.«165481_j68590627717564_1_alg».proof.Proof.Gen.Kernel.Frame
import proofs.«165481_j68590627717564_1_alg».proof.Proof.Gen.KernelIdeal
import proofs.«165481_j68590627717564_1_alg».proof.Proof.Gen.KernelIdeal.Skeleton
import proofs.«165481_j68590627717564_1_alg».proof.Proof.Gen.KernelIdeal.Launch
import proofs.«165481_j68590627717564_1_alg».proof.Proof.Gen.KernelIdeal.Points
import proofs.«165481_j68590627717564_1_alg».proof.Proof.Gen.KernelIdeal.Frame
import proofs.«165481_j68590627717564_1_alg».proof.Proof.Gen.ReferenceIdeal
import proofs.«165481_j68590627717564_1_alg».proof.Proof.Gen.ReferenceIdeal.Run
import proofs.«165481_j68590627717564_1_alg».proof.Proof.Gen.ReferenceIdeal.Read
import proofs.«165481_j68590627717564_1_alg».proof.Proof.Gen.Pre_finite_inputs
import proofs.«165481_j68590627717564_1_alg».proof.Proof.KernelArray
import proofs.«165481_j68590627717564_1_alg».proof.Proof.RefDot
import Idealize.ShloMosaic.Adequacy
import Idealize.ShloMosaic.Init

noncomputable section

namespace Cert.Proof

open Idealize.ShloMosaic Idealize.SL.Sem

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the dense layer of the arguments: the kernel's run read (Proof/KernelArray.lean),
    and the reference's run with its result term read at an index (Proof/RefDot.lean), from arguments that agree. -/
theorem algebraic : Cert.algebraic_KernelIdeal_ReferenceIdeal := by
  intro m ρ m' ρ' _ hagree
  refine ⟨fun c => Cert.Dense.dense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Dense.ref_eq_dense, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
